-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S27x21 : Shape := ⟨2, ![27, 21]⟩
abbrev S_ : Shape := ⟨0, ![]⟩

class Facts : Prop where
  bcast_S_S27x21 : S_.BroadcastsInDim S27x21 (![] : Fin 0 → Fin S27x21.rank)
  reducesTo_S27x21_S_d0_1 : S27x21.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : IVec S512x2048 32) (main_arg1 : FVec F S27x21 .f32) : IVec S_ 1 :=
  let main_v0 : FVec F S27x21 .f32 := Host.absf main_arg1
  let main_cst : FVec F S_ .f32 := constant S_ .f32 0x7F800000#32
  let main_v1 : FVec F S27x21 .f32 := broadcastInDim S27x21 ![] bcast_S_S27x21 main_cst
  let main_v2 : IVec S27x21 1 := cmpf .olt main_v0 main_v1
  let main_c : IVec S_ 1 := constantI S_ 1 1#1
  let main_v3 : IVec S_ 1 := (fun x v => Host.reduce IntOp.andi x v reducesTo_S27x21_S_d0_1 h_S_) main_v2 main_c
  let main_c_0 : IVec S_ 32 := constantI S_ 32 0#32
  let main_v4 : IVec S512x2048 32 := broadcastInDim S512x2048 ![] bcast_S_S512x2048 main_c_0
  let main_v5 : IVec S512x2048 1 := cmpi .sge main_arg0 main_v4
  let main_c_1 : IVec S_ 1 := constantI S_ 1 1#1
  let main_v6 : IVec S_ 1 := (fun x v => Host.reduce IntOp.andi x v reducesTo_S512x2048_S_d0_1 h_S_) main_v5 main_c_1
  let main_v7 : IVec S_ 1 := andi main_v3 main_v6
  let main_c_2 : IVec S_ 32 := constantI S_ 32 27#32
  let main_v8 : IVec S512x2048 32 := broadcastInDim S512x2048 ![] bcast_S_S512x2048 main_c_2
  let main_v9 : IVec S512x2048 1 := cmpi .slt main_arg0 main_v8
  let main_c_3 : IVec S_ 1 := constantI S_ 1 1#1
  let main_v10 : IVec S_ 1 := (fun x v => Host.reduce IntOp.andi x v reducesTo_S512x2048_S_d0_1 h_S_) main_v9 main_c_3
  let main_v11 : IVec S_ 1 := andi main_v7 main_v10
  main_v11
-- ==== Kernel.lean ====
abbrev S512x2048 : Shape := ⟨2, ![512, 2048]⟩
abbrev S27x21 : Shape := ⟨2, ![27, 21]⟩
abbrev S8192x2688 : Shape := ⟨2, ![8192, 2688]⟩
abbrev S8x2048 : Shape := ⟨2, ![8, 2048]⟩
abbrev S128x2688 : Shape := ⟨2, ![128, 2688]⟩
abbrev S4096x27 : Shape := ⟨2, ![4096, 27]⟩
abbrev S2x2048 : Shape := ⟨2, ![2, 2048]⟩
abbrev S4096x1 : Shape := ⟨2, ![4096, 1]⟩
abbrev S4096x21 : Shape := ⟨2, ![4096, 21]⟩
abbrev S32x2688 : Shape := ⟨2, ![32, 2688]⟩
abbrev S512x2048x21 : Shape := ⟨3, ![512, 2048, 21]⟩

abbrev nBuf : Space → Nat
  | .hbm => 4
  | .vmem => 5
  | .smem => 0
  | _ => 0

abbrev bufTy : (tb : Table) → Fin (tcTables nBuf tb) → BufTy
  | .hbm, ⟨0, _⟩ => ⟨S512x2048, .i32⟩
  | .hbm, ⟨1, _⟩ => ⟨S27x21, .f32⟩
  | .hbm, ⟨2, _⟩ => ⟨S8192x2688, .f32⟩
  | .hbm, ⟨3, _⟩ => ⟨S512x2048x21, .f32⟩
  | .local _ .vmem, ⟨0, _⟩ => ⟨S8x2048, .i32⟩
  | .local _ .vmem, ⟨1, _⟩ => ⟨S8x2048, .i32⟩
  | .local _ .vmem, ⟨2, _⟩ => ⟨S27x21, .f32⟩
  | .local _ .vmem, ⟨3, _⟩ => ⟨S128x2688, .f32⟩
  | .local _ .vmem, ⟨4, _⟩ => ⟨S128x2688, .f32⟩
  | _, _ => ⟨S512x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x21 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S27x21_S27x21_0_0 : ∀ a, (![0, 0] : Fin 2 → Nat) a + S27x21.size a ≤ S27x21.size a
  h_S27x21 : 0 < S27x21.numel
  bitsLt_bf16_f32 : FTy.bits .bf16 < FTy.bits .f32
  iota_S4096x27_d1_w32 : S4096x27.Iotas .tc 32 [1]
  inb_S8x2048_S2x2048_0_0 : ∀ a, (![0, 0] : Fin 2 → Nat) a + S2x2048.size a ≤ S8x2048.size a
  h_S2x2048 : 0 < S2x2048.numel
  shapeCasts_S2x2048_S4096x1 : S2x2048.ShapeCasts S4096x1
  broadcasts_S4096x1_S4096x27 : S4096x1.Broadcasts S4096x27
  natLt_1_32 : 1 < 32
  shapeCasts_S4096x21_S32x2688 : S4096x21.ShapeCasts S32x2688
  inb_S128x2688_S32x2688_0_0 : ∀ a, (![0, 0] : Fin 2 → Nat) a + S32x2688.size a ≤ S128x2688.size a
  h_S32x2688 : 0 < S32x2688.numel
  inb_S8x2048_S2x2048_2_0 : ∀ a, (![2, 0] : Fin 2 → Nat) a + S2x2048.size a ≤ S8x2048.size a
  inb_S128x2688_S32x2688_32_0 : ∀ a, (![32, 0] : Fin 2 → Nat) a + S32x2688.size a ≤ S128x2688.size a
  inb_S8x2048_S2x2048_4_0 : ∀ a, (![4, 0] : Fin 2 → Nat) a + S2x2048.size a ≤ S8x2048.size a
  inb_S128x2688_S32x2688_64_0 : ∀ a, (![64, 0] : Fin 2 → Nat) a + S32x2688.size a ≤ S128x2688.size a
  inb_S8x2048_S2x2048_6_0 : ∀ a, (![6, 0] : Fin 2 → Nat) a + S2x2048.size a ≤ S8x2048.size a
  inb_S128x2688_S32x2688_96_0 : ∀ a, (![96, 0] : Fin 2 → Nat) a + S32x2688.size a ≤ S128x2688.size a
  shapeCasts_S8192x2688_S512x2048x21 : S8192x2688.ShapeCasts S512x2048x21
  dot_S4096x27_S27x21_S4096x21_1_0_0_1_n_n_wf : DotDims.WF S4096x27 S27x21 S4096x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S512x2048.size a
  hwx0_0 : ∀ i : grid0.Coords, EltTy.bits .i32 = 32 ∨ (Rect.block (s := S512x2048) S8x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x21.size a ≤ S27x21.size a
  hwx0_1 : ∀ i : grid0.Coords, EltTy.bits .f32 = 32 ∨ (Rect.block (s := S27x21) S27x21.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2688.size a ≤ S8192x2688.size a
  hwx0_2 : ∀ i : grid0.Coords, EltTy.bits .f32 = 32 ∨ (Rect.block (s := S8192x2688) S128x2688.size (cc0_transform_2 i) (hinb0_2 i)).WholeWords (EltTy.packing .f32)

variable [Facts₀]

def dot_S4096x27_S27x21_S4096x21_1_0_0_1_n_n : DotDims S4096x27 S27x21 S4096x21 where
  lhsContracting := [1]
  rhsContracting := [0]
  lhsNonContracting := [0]
  rhsNonContracting := [1]
  lhsBatch := []
  rhsBatch := []
  wf := dot_S4096x27_S27x21_S4096x21_1_0_0_1_n_n_wf

abbrev win0_0 : Pipeline.Window sig grid0 :=
  Pipeline.Window.ofSpec (Memref.whole main_arg0) S8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S27x21.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x2688.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x2048 : Shape := ⟨2, ![512, 2048]⟩
abbrev S27x21 : Shape := ⟨2, ![27, 21]⟩
abbrev S_ : Shape := ⟨0, ![]⟩
abbrev S512x2048x1 : Shape := ⟨3, ![512, 2048, 1]⟩
abbrev S512x2048x21 : Shape := ⟨3, ![512, 2048, 21]⟩

abbrev nBuf : Space → Nat
  | .hbm => 11
  | .vmem => 0
  | .smem => 0
  | _ => 0

abbrev bufTy : (tb : Table) → Fin (tcTables nBuf tb) → BufTy
  | .hbm, ⟨0, _⟩ => ⟨S512x2048, .i32⟩
  | .hbm, ⟨1, _⟩ => ⟨S27x21, .f32⟩
  | .hbm, ⟨2, _⟩ => ⟨S_, .i32⟩
  | .hbm, ⟨3, _⟩ => ⟨S512x2048, .i32⟩
  | .hbm, ⟨4, _⟩ => ⟨S512x2048, .i1⟩
  | .hbm, ⟨5, _⟩ => ⟨S_, .i32⟩
  | .hbm, ⟨6, _⟩ => ⟨S512x2048, .i32⟩
  | .hbm, ⟨7, _⟩ => ⟨S512x2048, .i32⟩
  | .hbm, ⟨8, _⟩ => ⟨S512x2048, .i32⟩
  | .hbm, ⟨9, _⟩ => ⟨S512x2048x1, .i32⟩
  | .hbm, ⟨10, _⟩ => ⟨S512x2048x21, .f32⟩
  | _, _ => ⟨S512x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S512x2048 : S_.BroadcastsInDim S512x2048 (![] : Fin 0 → Fin S512x2048.rank)
  bcast_S512x2048_S512x2048x1_0_1 : S512x2048.BroadcastsInDim S512x2048x1 (![0, 1] : Fin 2 → Fin S512x2048x1.rank)
  gather_S27x21_S512x2048x1_S512x2048x21_2_0_n_n_0_2_121_wf : GatherDims.WF S27x21 S512x2048x1 S512x2048x21 [2] [0] [] [0] [] 2 ![1, 21]

variable [Facts₀]

def gather_S27x21_S512x2048x1_S512x2048x21_2_0_n_n_0_2_121 : GatherDims S27x21 S512x2048x1 S512x2048x21 where
  offsetDims := [2]
  collapsedSliceDims := [0]
  operandBatchingDims := []
  startIndicesBatchingDims := []
  startIndexMap := [0]
  indexVectorDim := 2
  sliceSizes := ![1, 21]
  wf := gather_S27x21_S512x2048x1_S512x2048x21_2_0_n_n_0_2_121_wf

class Facts : Prop extends Facts₀ where

variable [Facts]
-- ==== Proof.Spec.lean ====
/-
  The lookup both programs compute. Entry (b, l, j) of the result is the table's entry (row, j), where row is the code
  sequence[b, l]; the codes are the 27 classes 0 … 26, and a code is read as a natural number cut at the last row,
  so that the lookup is a total function of the arrays.

  The kernel keeps its result as rows of 2688 = 128 · 21 numbers: 128 consecutive tokens' 21 entries to a row. In
  row-major order position p = row · 2688 + column is entry p mod 21 of token p / 21, and token n is the code at
  (n / 2048, n mod 2048); `flat` is the lookup in that layout, for B rows of codes and R rows of the layout with
  R · 2688 = B · 2048 · 21 (a block of the kernel: B = 8, R = 128; the whole array: B = 512, R = 8192). Regrouping the
  whole array's layout to [512, 2048, 21] gives `G`.

  The law that joins the two sides: a one-hot row against the table. Over the 27 classes the sum of
  [class = code] · table[class, j] has one term that is not zero, table[code, j]. On the extended reals 0 · x = 0
  for every x, infinite or not, so the law asks nothing of the table.
-/
import Idealize.ShloMosaic.PureOps.Ideal
import Idealize.ShloMosaic.Lib.ValueIdx
import Idealize.ShloMosaic.Lib.Pipeline.Value

noncomputable section

open scoped BigOperators

namespace Cert.Lookup

open Idealize.ShloMosaic Idealize.ShloMosaic.ValueIdx

/-- The codes' shape, the table's and the result's. -/
abbrev Codes : Shape := ⟨2, ![512, 2048]⟩
abbrev Table : Shape := ⟨2, ![27, 21]⟩
abbrev Out : Shape := ⟨3, ![512, 2048, 21]⟩

/-- The table row a code names: the code as a natural number, cut at the last row. -/
def rowOf (v : BitVec 32) : Fin 27 := ⟨min v.toNat 26, by omega⟩

/-- A code that is one of the classes names its own row. -/
theorem rowOf_val {v : BitVec 32} (h : v.toNat < 27) : (rowOf v).val = v.toNat := by
  show min v.toNat 26 = v.toNat
  omega

/-- Every code is one of the 27 classes. -/
def InRange (codes : IVec Codes 32) : Prop := ∀ i, (codes i).toNat < 27

/-- The lookup, index by index. -/
def G (codes : IVec Codes 32) (tbl : Table.Idx → EReal) : Out.Idx → EReal :=
  fun i => tbl (ix2 (rowOf (codes (ix2 (i 0) (i 1)))) (i 2))

theorem G_apply (codes : IVec Codes 32) (tbl : Table.Idx → EReal) (b : Fin 512) (l : Fin 2048) (j : Fin 21) :
    G codes tbl (ix3 b l j) = tbl (ix2 (rowOf (codes (ix2 b l))) j) := rfl

/-! ## The lookup as rows of 2688 -/

section Flat
variable {B R : Nat}

/-- The row of codes position `i` of the layout belongs to, -/
def posRow (h : R * 2688 = B * 2048 * 21) (i : (⟨2, ![R, 2688]⟩ : Shape).Idx) : Fin B :=
  ⟨((i 0).val * 2688 + (i 1).val) / 21 / 2048, by have := idx2_lt0 i; have := idx2_lt1 i; omega⟩
/-- the code's place in that row, -/
def posCol (i : (⟨2, ![R, 2688]⟩ : Shape).Idx) : Fin 2048 :=
  ⟨((i 0).val * 2688 + (i 1).val) / 21 % 2048, by omega⟩
/-- and which of the token's 21 entries it is. -/
def posEnt (i : (⟨2, ![R, 2688]⟩ : Shape).Idx) : Fin 21 :=
  ⟨((i 0).val * 2688 + (i 1).val) % 21, by omega⟩

/-- The lookup in the layout of rows of 2688. -/
def flat (h : R * 2688 = B * 2048 * 21) (codes : (⟨2, ![B, 2048]⟩ : Shape).Idx → BitVec 32) (tbl : Table.Idx → EReal) :
    (⟨2, ![R, 2688]⟩ : Shape).Idx → EReal :=
  fun i => tbl (ix2 (rowOf (codes (ix2 (posRow h i) (posCol i)))) (posEnt i))

/-- At the position of entry j of the token at (a, l) the layout holds the table's entry (row of that code, j). -/
theorem flat_apply (h : R * 2688 = B * 2048 * 21) (codes : (⟨2, ![B, 2048]⟩ : Shape).Idx → BitVec 32) (tbl : Table.Idx → EReal)
    (r : Fin R) (q : Fin 2688) (a : Fin B) (l : Fin 2048) (j : Fin 21)
    (hpos : r.val * 2688 + q.val = (a.val * 2048 + l.val) * 21 + j.val) :
    flat h codes tbl (ix2 r q) = tbl (ix2 (rowOf (codes (ix2 a l))) j) := by
  have hl := l.isLt
  have hj := j.isLt
  have ea : posRow h (ix2 r q) = a := Fin.ext (by
    show (r.val * 2688 + q.val) / 21 / 2048 = a.val
    omega)
  have el : posCol (ix2 r q : (⟨2, ![R, 2688]⟩ : Shape).Idx) = l := Fin.ext (by
    show (r.val * 2688 + q.val) / 21 % 2048 = l.val
    omega)
  have ej : posEnt (ix2 r q : (⟨2, ![R, 2688]⟩ : Shape).Idx) = j := Fin.ext (by
    show (r.val * 2688 + q.val) % 21 = j.val
    omega)
  show tbl (ix2 (rowOf (codes (ix2 (posRow h (ix2 r q)) (posCol (ix2 r q))))) (posEnt (ix2 r q))) = _
  rw [ea, el, ej]

end Flat

/-- The whole array: 8192 rows of 2688 hold 512 rows of 2048 tokens' 21 entries. -/
theorem whole_count : 8192 * 2688 = 512 * 2048 * 21 := by norm_num
/-- One block of the kernel: 128 rows of 2688 hold 8 rows of 2048 tokens' 21 entries. -/
theorem block_count : 128 * 2688 = 8 * 2048 * 21 := by norm_num

/-- The whole array's layout regrouped to [512, 2048, 21] is the lookup: both orders are row-major. -/
theorem flat_reshape (codes : IVec Codes 32) (tbl : Table.Idx → EReal)
    (hc : (⟨2, ![8192, 2688]⟩ : Shape).ShapeCasts Out) :
    shapeCast Out (flat (B := 512) (R := 8192) whole_count codes tbl) hc = G codes tbl := by
  funext i
  obtain ⟨b, l, j, rfl⟩ : ∃ (b : Fin 512) (l : Fin 2048) (j : Fin 21), i = ix3 b l j := ⟨i 0, i 1, i 2, eq_ix3 i⟩
  have hb := b.isLt
  have hl := l.isLt
  have hj := j.isLt
  refine (shapeCast_apply _ hc (ix3 b l j)
    (ix2 (⟨((b.val * 2048 + l.val) * 21 + j.val) / 2688, by omega⟩ : Fin 8192)
      (⟨((b.val * 2048 + l.val) * 21 + j.val) % 2688, by omega⟩ : Fin 2688)) ?_).trans ?_
  · rw [Shape.rowMajor_val_two, Shape.rowMajor_val_three]
    show ((b.val * 2048 + l.val) * 21 + j.val) / 2688 * 2688 + ((b.val * 2048 + l.val) * 21 + j.val) % 2688
      = (b.val * 2048 + l.val) * 21 + j.val
    omega
  · exact flat_apply whole_count codes tbl _ _ b l j (by
      show ((b.val * 2048 + l.val) * 21 + j.val) / 2688 * 2688 + ((b.val * 2048 + l.val) * 21 + j.val) % 2688
        = (b.val * 2048 + l.val) * 21 + j.val
      omega)

/-- One entry of the one-hot row of a code: the class compared with the code, the bit widened and read as a number, is 1
    at the code's own class and 0 at every other. -/
theorem onehot_entry (c : Fin 27) (s : BitVec 32) (hs : s.toNat < 27) :
    (FloatOps.sitofp (F := Ideal) .f32 ((IntOp.cmpi .eq (BitVec.ofNat 32 c.val) s).setWidth 32) : EReal)
      = if c = rowOf s then 1 else 0 := by
  by_cases h : c = rowOf s
  · -- the class is the code: the comparison's bit is set
    have hv : c.val = s.toNat := by rw [h]; exact rowOf_val hs
    have e : BitVec.ofNat 32 c.val = s := by
      apply BitVec.eq_of_toNat_eq
      rw [BitVec.toNat_ofNat, hv]
      exact Nat.mod_eq_of_lt s.isLt
    rw [if_pos h, e]
    have : IntOp.cmpi .eq s s = 1#1 := by simp [IntOp.cmpi]
    rw [this]
    show (((((1#1 : BitVec 1).setWidth 32).toInt : ℝ)) : EReal) = 1
    norm_num
  · -- another class: the two words differ, the bit is clear
    have hne : BitVec.ofNat 32 c.val ≠ s := by
      intro e
      apply h
      apply Fin.ext
      rw [rowOf_val hs, ← e, BitVec.toNat_ofNat]
      have := c.isLt
      omega
    rw [if_neg h]
    have hb : (BitVec.ofNat 32 c.val == s) = false := beq_eq_false_iff_ne.mpr hne
    have : IntOp.cmpi .eq (BitVec.ofNat 32 c.val) s = 0#1 := by
      show BitVec.ofBool (BitVec.ofNat 32 c.val == s) = 0#1
      rw [hb]; rfl
    rw [this]
    show (((((0#1 : BitVec 1).setWidth 32).toInt : ℝ)) : EReal) = 0
    norm_num

/-- The one-hot row of a code against a column of the table: the column's entry at the code's row. -/
theorem onehot_sum (s : BitVec 32) (hs : s.toNat < 27) (t : Fin 27 → EReal) :
    ∑ c : Fin 27, (FloatOps.sitofp (F := Ideal) .f32 ((IntOp.cmpi .eq (BitVec.ofNat 32 c.val) s).setWidth 32) : EReal) * t c
      = t (rowOf s) := by
  simp only [onehot_entry _ _ hs]
  rw [Finset.sum_eq_single (rowOf s)]
  · rw [if_pos rfl, one_mul]
  · intro c _ hc
    rw [if_neg hc, zero_mul]
  · intro h
    exact absurd (Finset.mem_univ _) h

end Cert.Lookup

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Payload.lean ====
/-
  What one store of the kernel body holds. The body handles its block of 8 rows of codes in four chunks of 2 rows;
  a chunk's 4096 codes become a 4096 × 27 one-hot matrix, its product with the 27 × 21 table is the 4096 × 21 matrix of
  the looked-up rows, and that matrix is stored regrouped, row-major, as 32 × 2688. All four stores carry this one
  function of the table and of their two rows of codes.

  Read at an index: position (r, q) of the regrouped value is position (τ, j) of the product, where
  r · 2688 + q = τ · 21 + j, and token τ of the chunk is the code at (a, l) of the two rows, τ = a · 2048 + l. The
  product's entry (τ, j) is the one-hot row of that code against column j of the table: the table's entry at the
  code's row.
-/
import proofs.«403892_j51797305589978_3_alg».proof.Proof.Gen.KernelIdeal.Skeleton
import proofs.«403892_j51797305589978_3_alg».proof.Proof.Spec
import proofs.«403892_j51797305589978_3_alg».proof.Proof.LibRowDims
import Idealize.ShloMosaic.Lib.Pipeline.Value
import Idealize.ShloMosaic.Lib.ValueIdx

noncomputable section

open scoped BigOperators

namespace Cert.KernelIdeal.Chunk

open Cert.KernelIdeal Cert.KernelIdeal.Gen Idealize.ShloMosaic Idealize.ShloMosaic.ValueIdx Cert.Lookup

section AnyInstance
variable {F : FTy → Type} [FloatOps F]

/-- The second, third and fourth store carry the first store's function, of their own rows of codes. -/
theorem pay4_eq (tbl : Vec F S27x21 .f32) (codes : Vec F S2x2048 .i32) : k0_pay4 tbl codes = k0_pay3 tbl codes := rfl
theorem pay5_eq (tbl : Vec F S27x21 .f32) (codes : Vec F S2x2048 .i32) : k0_pay5 tbl codes = k0_pay3 tbl codes := rfl
theorem pay1_eq (tbl : Vec F S27x21 .f32) (codes : Vec F S2x2048 .i32) :
    k0_pay1 (k0_pay2 tbl) (k0_pay6 codes) = k0_pay3 tbl codes := rfl

end AnyInstance

/-- A chunk's stored value at (r, q): the table's entry (row of the code at (a, l), j), where (r, q) and (τ, j) are one
    row-major position and τ = a · 2048 + l. -/
theorem pay3_apply (tbl : Vec Ideal S27x21 .f32) (codes : Vec Ideal S2x2048 .i32)
    (r : Fin 32) (q : Fin 2688) (a : Fin 2) (l : Fin 2048) (j : Fin 21)
    (hpos : r.val * 2688 + q.val = (a.val * 2048 + l.val) * 21 + j.val)
    (hs : (codes (ix2 a l)).toNat < 27) :
    k0_pay3 (F := Ideal) tbl codes (ix2 r q) = tbl (ix2 (rowOf (codes (ix2 a l))) j) := by
  -- the chunk's token
  have hτ : a.val * 2048 + l.val < 4096 := by have := a.isLt; have := l.isLt; omega
  let τ : Fin 4096 := ⟨a.val * 2048 + l.val, hτ⟩
  unfold k0_pay3 k0_pay2
  -- the regrouping keeps the row-major position
  refine (shapeCast_apply _ _ (ix2 r q) (ix2 τ j) ?_).trans ?_
  · rw [Shape.rowMajor_val_two, Shape.rowMajor_val_two]
    show (a.val * 2048 + l.val) * 21 + j.val = r.val * 2688 + q.val
    exact hpos.symm
  -- the product's entry is the sum over the 27 classes
  refine (RowDims.matmul_plain_zero_apply none _ _ τ j).trans ?_
  -- each one-hot entry: the class against the code at (a, l)
  have hl : ∀ k : Fin 27,
      (truncf .bf16 (sitofp (F := Ideal) .f32 (extui 32 (cmpi .eq (iota .tc S4096x27 32 [1] iota_S4096x27_d1_w32)
        (broadcastTo S4096x27 (shapeCast S4096x1 codes shapeCasts_S2x2048_S4096x1) broadcasts_S4096x1_S4096x27)) natLt_1_32))
          bitsLt_bf16_f32 : FVec Ideal S4096x27 .bf16) (ix2 τ k)
        = FloatOps.sitofp (F := Ideal) .f32 ((IntOp.cmpi .eq (BitVec.ofNat 32 k.val) (codes (ix2 a l))).setWidth 32) := by
    intro k
    show FloatOps.sitofp (F := Ideal) .f32 ((IntOp.cmpi .eq (iota .tc S4096x27 32 [1] iota_S4096x27_d1_w32 (ix2 τ k))
        (broadcastTo S4096x27 (shapeCast S4096x1 codes shapeCasts_S2x2048_S4096x1) broadcasts_S4096x1_S4096x27 (ix2 τ k))).setWidth 32) = _
    rw [iota_single_apply,
      broadcastTo_apply _ _ (ix2 τ k) (ix2 τ (0 : Fin 1)) (fun b => match b with
        | ⟨0, _⟩ => by show τ.val = if (4096 : Nat) = 1 then 0 else τ.val; rw [if_neg (by decide)]
        | ⟨1, _⟩ => by show (0 : Nat) = if (1 : Nat) = 1 then 0 else _; rw [if_pos rfl]),
      shapeCast_apply _ _ (ix2 τ (0 : Fin 1)) (ix2 a l) (by
        rw [Shape.rowMajor_val_two, Shape.rowMajor_val_two]
        show a.val * 2048 + l.val = (a.val * 2048 + l.val) * 1 + 0
        omega)]
  simp only [hl]
  exact onehot_sum (codes (ix2 a l)) hs (fun k => tbl (ix2 k j))

end Cert.KernelIdeal.Chunk

end
-- ==== Proof.Block.lean ====
/-
  What the kernel body leaves in its output block. The block is 128 rows of 2688; the body writes it in four stores of
  32 rows, store number n (n = 0 … 3) from rows 2n and 2n + 1 of the block's 8 rows of codes. Rows 32n … 32n + 31 of
  the layout hold exactly the tokens of code rows 2n and 2n + 1 (32 · 2688 = 2 · 2048 · 21), so every store's value
  is the matching piece of ONE function of the block's codes and the table: the lookup in the layout of rows of 2688
  (`Cert.Lookup.flat` at 8 rows of codes). The four pieces tile the block, so the block is that function.
-/
import proofs.«403892_j51797305589978_3_alg».proof.Proof.Gen.KernelIdeal.Frame
import proofs.«403892_j51797305589978_3_alg».proof.Proof.Payload

noncomputable section

namespace Cert.KernelIdeal.Chunk

open Cert.KernelIdeal Cert.KernelIdeal.Gen Idealize.ShloMosaic Idealize.ShloMosaic.ValueIdx Cert.Lookup

theorem zero_off : (![0, 0] : Fin 2 → Nat) = fun _ => 0 := funext fun a => by fin_cases a <;> rfl

/-- One store: the chunk's value, computed from the two rows of codes at row offset `oi` of the block and written at row
    offset `oo = 16 · oi` of the output block, is the flat lookup of the block read through the store's rectangle. -/
theorem piece_eq (x0 : Vec Ideal S8x2048 .i32) (x1 : Vec Ideal S27x21 .f32) (hx : ∀ i, (x0 i).toNat < 27)
    (oi oo : Nat) (inbI : ∀ a, (![oi, 0] : Fin 2 → Nat) a + S2x2048.size a ≤ S8x2048.size a)
    (inbO : ∀ a, (![oo, 0] : Fin 2 → Nat) a + S32x2688.size a ≤ S128x2688.size a) (ho : oo = 16 * oi)
    (x : S32x2688.Idx) :
    k0_pay3 (F := Ideal) (View.ld x1 r0_0) (View.ld x0 (Rect.unit (s := S8x2048) ![oi, 0] S2x2048.size inbI)) x
      = flat (B := 8) (R := 128) block_count x0 x1 ((Rect.unit (s := S128x2688) ![oo, 0] S32x2688.size inbO).emb x) := by
  obtain ⟨r, q, rfl⟩ : ∃ (r : Fin 32) (q : Fin 2688), x = ix2 r q := ⟨x 0, x 1, eq_ix2 x⟩
  have hr := r.isLt
  have hq := q.isLt
  have hoi : oi + 2 ≤ 8 := inbI 0
  have hoo : oo + 32 ≤ 128 := inbO 0
  -- the token of the chunk this position belongs to, and its entry
  let a : Fin 2 := ⟨(r.val * 2688 + q.val) / 21 / 2048, by omega⟩
  let l : Fin 2048 := ⟨(r.val * 2688 + q.val) / 21 % 2048, by omega⟩
  let j : Fin 21 := ⟨(r.val * 2688 + q.val) % 21, by omega⟩
  have hpos : r.val * 2688 + q.val = (a.val * 2048 + l.val) * 21 + j.val := by
    show r.val * 2688 + q.val = ((r.val * 2688 + q.val) / 21 / 2048 * 2048 + (r.val * 2688 + q.val) / 21 % 2048) * 21
      + (r.val * 2688 + q.val) % 21
    omega
  -- the chunk's code at (a, l) is the block's at (oi + a, l)
  have hcode : View.ld x0 (Rect.unit (s := S8x2048) ![oi, 0] S2x2048.size inbI) (ix2 a l)
      = x0 (ix2 (⟨oi + a.val, by have := a.isLt; omega⟩ : Fin 8) l) := by
    show x0 _ = x0 _
    congr 1
    funext b
    apply Fin.ext
    match b with
    | ⟨0, _⟩ => show oi + 1 * a.val = oi + a.val; omega
    | ⟨1, _⟩ => show 0 + 1 * l.val = l.val; omega
  -- the store's rectangle puts (r, q) at (oo + r, q) of the block
  have hemb : (Rect.unit (s := S128x2688) ![oo, 0] S32x2688.size inbO).emb (ix2 r q)
      = ix2 (⟨oo + r.val, by omega⟩ : Fin 128) q := by
    funext b
    apply Fin.ext
    match b with
    | ⟨0, _⟩ => show oo + 1 * r.val = oo + r.val; omega
    | ⟨1, _⟩ => show 0 + 1 * q.val = q.val; omega
  rw [hemb,
    pay3_apply (View.ld x1 r0_0) (View.ld x0 (Rect.unit (s := S8x2048) ![oi, 0] S2x2048.size inbI)) r q a l j hpos
      (by rw [hcode]; exact hx _),
    hcode, View.ld_unit_zero (S := S27x21) zero_off,
    flat_apply block_count x0 x1 (⟨oo + r.val, by omega⟩ : Fin 128) q (⟨oi + a.val, by have := a.isLt; omega⟩ : Fin 8) l j (by
      show (oo + r.val) * 2688 + q.val = ((oi + a.val) * 2048 + l.val) * 21 + j.val
      omega)]

/-- THE OUTPUT BLOCK after the body: the flat lookup of the block's codes in the table. -/
theorem out_block (x0 : Vec Ideal S8x2048 .i32) (x1 : Vec Ideal S27x21 .f32) (hx : ∀ i, (x0 i).toNat < 27) :
    out0_2 (F := Ideal) x0 x1 = flat (B := 8) (R := 128) block_count x0 x1 := by
  funext y
  unfold out0_2
  refine View.canon_apply_of_pieces (Val := Elt Ideal) (S := S128x2688) (e := .f32)
    (flat (B := 8) (R := 128) block_count x0 x1 : S128x2688.Idx → Elt Ideal .f32) _ ?_ y (cover0_2 _ _ _ _ y)
  intro p hp x
  simp only [List.mem_cons, List.mem_nil_iff, or_false] at hp
  rcases hp with rfl | rfl | rfl | rfl
  · rw [pay1_eq]; exact piece_eq x0 x1 hx 6 96 inb_S8x2048_S2x2048_6_0 inb_S128x2688_S32x2688_96_0 rfl x
  · rw [pay5_eq]; exact piece_eq x0 x1 hx 4 64 inb_S8x2048_S2x2048_4_0 inb_S128x2688_S32x2688_64_0 rfl x
  · rw [pay4_eq]; exact piece_eq x0 x1 hx 2 32 inb_S8x2048_S2x2048_2_0 inb_S128x2688_S32x2688_32_0 rfl x
  · exact piece_eq x0 x1 hx 0 0 inb_S8x2048_S2x2048_0_0 inb_S128x2688_S32x2688_0_0 rfl x

end Cert.KernelIdeal.Chunk

end
-- ==== Proof.KernelValue.lean ====
/-
  The kernel's result as a function of its arguments. Grid point t (of 64) fetches rows 8t … 8t + 7 of the codes and the
  whole table, and writes back rows 128t … 128t + 127 of the [8192, 2688] array. Rows 128t … of the layout of rows of
  2688 hold exactly the tokens of code rows 8t … 8t + 7 (128 · 2688 = 8 · 2048 · 21), so what point t writes back is
  block t of the flat lookup of the WHOLE codes array; the 64 blocks tile the array, so after the region the array is
  that lookup, and the reshape that follows makes it the lookup `G` at [512, 2048, 21].
-/
import proofs.«403892_j51797305589978_3_alg».proof.Proof.Gen.KernelIdeal.Frame
import proofs.«403892_j51797305589978_3_alg».proof.Proof.Block
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Chunk Idealize.ShloMosaic.ValueIdx Cert.Lookup

variable (m : (ℓ : Loc nD τ sig) → Buf (Elt Ideal) ℓ) (ρ : Dev nD → PrngReg)

/-- The codes and the table as launched. -/
abbrev codes (c : Dev nD) : IVec Codes 32 := m ((c : Thread nD τ).loc main_arg0)
abbrev table (c : Dev nD) : Table.Idx → EReal := m ((c : Thread nD τ).loc main_arg1)

/-- The two input blocks at a point, at their literal shapes. -/
abbrev cblk (c : Dev nD) (t : Fin cfg0.N) : Vec Ideal S8x2048 .i32 := iblk m c 0 t
abbrev tblk (c : Dev nD) (t : Fin cfg0.N) : Vec Ideal S27x21 .f32 := iblk m c 1 t

/-- The printed index maps over the grid: the codes' and the output's block index is the point, the table's is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 64 := lt_of_lt_of_eq t.isLt N_0

/-- The codes' block at point t is rows 8t … 8t + 7 of the codes. -/
theorem cblk_apply (c : Dev nD) (t : Fin cfg0.N) (a : Fin 8) (l : Fin 2048) :
    cblk m c t (ix2 a l) = codes m c (ix2 (⟨8 * t.val + a.val, by have := t_lt t; have := a.isLt; omega⟩ : Fin 512) l) := by
  obtain ⟨e0, e1, -⟩ := idx_facts t
  show iblk m c 0 t (ix2 a l) = _
  unfold iblk
  rw [View.read_apply]
  show V m c main_arg0 _ = m (c.tc.loc main_arg0) _
  unfold V
  congr 1
  funext b
  apply Fin.ext
  match b with
  | ⟨0, _⟩ => show win0_0.index t (0 : Fin 2) * 8 + 1 * a.val = 8 * t.val + a.val; rw [e0]; omega
  | ⟨1, _⟩ => show win0_0.index t (1 : Fin 2) * 2048 + 1 * l.val = l.val; rw [e1]; omega

/-- The table's block at every point is the table. -/
theorem tblk_eq (c : Dev nD) (t : Fin cfg0.N) : tblk m c t = table m c := by
  obtain ⟨-, -, e0, e1, -⟩ := idx_facts t
  funext x
  show iblk m c 1 t x = _
  unfold iblk
  rw [View.read_apply]
  show V m c main_arg1 _ = m (c.tc.loc main_arg1) _
  unfold V
  congr 1
  funext b
  apply Fin.ext
  match b with
  | ⟨0, _⟩ => show win0_1.index t (0 : Fin 2) * 27 + 1 * (x 0).val = (x 0).val; rw [e0]; omega
  | ⟨1, _⟩ => show win0_1.index t (1 : Fin 2) * 21 + 1 * (x 1).val = (x 1).val; rw [e1]; omega

/-- WHAT POINT t WRITES BACK: block t of the flat lookup of the whole arrays. -/
theorem flushed_eq (c : Dev nD) (hin : InRange (codes m c)) (t : Fin cfg0.N) :
    (dats m 0 c).flushed 2 t
      = ((cfg0.win 2).blk t).view.read (Elt Ideal) (flat (B := 512) (R := 8192) whole_count (codes m c) (table m c)) := by
  have ht := t_lt t
  obtain ⟨-, -, -, -, e0, e1⟩ := idx_facts t
  show (cfg0.win 2).cut (grid0.coords t) ((dats m 0 c).after 2 t) = _
  rw [after0_2]
  funext y
  show out0_2 (F := Ideal) (cblk m c t) (tblk m c t) y
    = flat (B := 512) (R := 8192) whole_count (codes m c) (table m c) (((cfg0.win 2).blk t).view.emb y)
  rw [out_block (cblk m c t) (tblk m c t) (fun i => by
    obtain ⟨a, l, rfl⟩ : ∃ (a : Fin 8) (l : Fin 2048), i = ix2 a l := ⟨i 0, i 1, eq_ix2 i⟩
    rw [cblk_apply]; exact hin _)]
  obtain ⟨r, q, rfl⟩ : ∃ (r : Fin 128) (q : Fin 2688), y = ix2 r q := ⟨y 0, y 1, eq_ix2 y⟩
  have hr := r.isLt
  have hq := q.isLt
  -- the block's (r, q) is the array's (128 t + r, q)
  have hemb : ((cfg0.win 2).blk t).view.emb (ix2 r q) = ix2 (⟨128 * t.val + r.val, by omega⟩ : Fin 8192) q := by
    funext b
    apply Fin.ext
    match b with
    | ⟨0, _⟩ => show win0_2.index t (0 : Fin 2) * 128 + 1 * r.val = 128 * t.val + r.val; rw [e0]; omega
    | ⟨1, _⟩ => show win0_2.index t (1 : Fin 2) * 2688 + 1 * q.val = q.val; rw [e1]; omega
  -- the token this position belongs to, inside the block
  let a : Fin 8 := ⟨(r.val * 2688 + q.val) / 21 / 2048, by omega⟩
  let l : Fin 2048 := ⟨(r.val * 2688 + q.val) / 21 % 2048, by omega⟩
  let j : Fin 21 := ⟨(r.val * 2688 + q.val) % 21, by omega⟩
  have hpos : r.val * 2688 + q.val = (a.val * 2048 + l.val) * 21 + j.val := by
    show r.val * 2688 + q.val = ((r.val * 2688 + q.val) / 21 / 2048 * 2048 + (r.val * 2688 + q.val) / 21 % 2048) * 21
      + (r.val * 2688 + q.val) % 21
    omega
  rw [hemb, flat_apply block_count (cblk m c t) (tblk m c t) r q a l j hpos,
    flat_apply whole_count (codes m c) (table m c) (⟨128 * t.val + r.val, by omega⟩ : Fin 8192) q
      (⟨8 * t.val + a.val, by have := a.isLt; omega⟩ : Fin 512) l j (by
        show (128 * t.val + r.val) * 2688 + q.val = ((8 * t.val + a.val) * 2048 + l.val) * 21 + j.val
        omega),
    cblk_apply, tblk_eq]

/-- An index of the array is in point t's block iff each coordinate is in the block's range on its axis. -/
theorem mem_blk (t : Fin cfg0.N) (i : S8192x2688.Idx) :
    i ∈ ((cfg0.win 2).blk t).view.set ↔ ∀ a : Fin 2, win0_2.index t a * S128x2688.size a ≤ (i a).val
      ∧ (i a).val < win0_2.index t a * S128x2688.size a + S128x2688.size a := by
  show i ∈ ((View.whole main_v0).slice (win0_2.rect t)).set ↔ _
  rw [View.set_slice_whole, Rect.mem_set_unit]
  exact Iff.rfl

/-- The 64 blocks cover the array: row R is in the block of point R / 128. -/
theorem cover (i : S8192x2688.Idx) : ∃ t : Fin cfg0.N, (cfg0.win 2).flush t = true ∧ i ∈ ((cfg0.win 2).blk t).view.set := by
  have h0 : (i 0).val < 8192 := (i 0).isLt
  have h1 : (i 1).val < 2688 := (i 1).isLt
  let t : Fin cfg0.N := ⟨(i 0).val / 128, by rw [show cfg0.N = 64 from N_0]; omega⟩
  obtain ⟨-, -, -, -, e0, e1⟩ := idx_facts t
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    rw [e0]
    show (i 0).val / 128 * 128 ≤ (i 0).val ∧ (i 0).val < (i 0).val / 128 * 128 + 128
    omega
  | ⟨1, _⟩ =>
    show win0_2.index t (1 : Fin 2) * 2688 ≤ (i 1).val ∧ (i 1).val < win0_2.index t (1 : Fin 2) * 2688 + 2688
    rw [e1]
    omega

/-- THE ARRAY after the region: the flat lookup of the codes in the table. -/
theorem final (c : Dev nD) (hin : InRange (codes m c)) :
    (dats m 0 c).arrAt 2 cfg0.N = flat (B := 512) (R := 8192) whole_count (codes m c) (table m c) :=
  (dats m 0 c).arrAt_eq_of_cover 2 (flat (B := 512) (R := 8192) whole_count (codes m c) (table m c))
    (fun t _ => flushed_eq m c hin t) cover

/-- The reshape after the region makes it the lookup at [512, 2048, 21]. -/
theorem tail_eq (c : Dev nD) (hin : InRange (codes m c)) :
    Pipeline.afterTail₀ cfgs (dats m) 0 (V0 m) [hostOps1] c main_v1 = G (codes m c) (table m c) := by
  unfold Pipeline.afterTail₀
  show StableHlo.after hostOps1 _ (Proc.devRef .tc main_v1) = _
  after_results
  -- the region's output array, as the reshape finds it, is the flat lookup
  have hw : Pipeline.withArrays (cfgs 0).spec c (V0 m c) (fun w => (dats m 0 c).arrAt w (cfgs 0).N) (Proc.devRef .tc main_v0)
      = flat (B := 512) (R := 8192) whole_count (codes m c) (table m c) :=
    (Pipeline.withArrays_arr spec0 launch0.win.arr_inj c _ _ 2).trans (final m c hin)
  funext i
  show shapeCast S512x2048x21 (Pipeline.withArrays (cfgs 0).spec c (V0 m c) (fun w => (dats m 0 c).arrAt w (cfgs 0).N)
    (Proc.devRef .tc main_v0)) shapeCasts_S8192x2688_S512x2048x21 i = _
  rw [hw, flat_reshape]

/-- THE RUN, READ: on codes that are classes the kernel's result is the lookup; the arguments end unchanged. -/
theorem run (hin : ∀ c : Dev nD, InRange (codes m c)) :
    θ_run defs (onTc (τ := τ) (main (F := Ideal))) ⟨m, fun _ => 0, ρ⟩ fun r => ∀ c : Dev nD,
      r.2.mem ((c.tc : Thread nD τ).loc main_v1) = G (codes m c) (table m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 (by decide)).trans (tail_eq m c (hin c)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.Reference.lean ====
/-
  The reference, read at an index. `table[sequence]` lowers to: wrap a negative code by adding 27, then a gather
  whose start indices are the codes as [512, 2048, 1], one start index per token, naming a row of the table; the slice
  is that whole row, [1, 21], its 21 entries the result's last axis. The gather clamps the start index into 0 … 26.

  So entry (b, l, j) of the result is the table at (row, j), row the wrapped code read signed and clamped. A code that
  is one of the classes 0 … 26 is not negative, is not wrapped, and is its own clamp: for such codes the reference's
  term is the lookup `G`.
-/
import proofs.«403892_j51797305589978_3_alg».proof.Proof.Gen.ReferenceIdeal.Read
import proofs.«403892_j51797305589978_3_alg».proof.Proof.Spec
import Idealize.ShloMosaic.Lib.ValueIdx
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx
open Cert.Lookup

/-- The gather's dimension numbers. -/
abbrev gd : GatherDims S27x21 S512x2048x1 S512x2048x21 := gather_S27x21_S512x2048x1_S512x2048x21_2_0_n_n_0_2_121

/-- Result entry (b, l, j) reads its one start-index component at (b, l, 0). -/
theorem gd_siIdx (b : Fin 512) (l : Fin 2048) (j : Fin 21) :
    gd.siIdx (ix3 b l j) ⟨List.idxOf (0 : Fin 2) gd.startIndexMap,
      List.idxOf_lt_length_iff.2 (List.mem_singleton.mpr rfl)⟩ = ix3 b l (0 : Fin 1) := by
  funext a; refine Fin.ext ?_
  match a with
  | ⟨0, _⟩ => rfl
  | ⟨1, _⟩ => rfl
  | ⟨2, _⟩ => rfl

/-- On the table's row axis (collapsed, named by the start index map) the operand index is the clamped start index. -/
theorem gd_row {w : Nat} (idx : IVec S512x2048x1 w) (b : Fin 512) (l : Fin 2048) (j : Fin 21) :
    (gd.operandIdx (ix3 b l j) idx 0).val = min (idx (ix3 b l (0 : Fin 1))).toInt.toNat 26 := by
  show gd.start (ix3 b l j) idx 0 + gd.batchCoord (ix3 b l j) 0 + gd.offCoord (ix3 b l j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gd.startIndexMap from List.mem_singleton.mpr rfl)]
  rw [gd_siIdx b l j]
  rfl

/-- On the table's column axis (the offset axis) the operand index is the result's last coordinate. -/
theorem gd_col {w : Nat} (idx : IVec S512x2048x1 w) (b : Fin 512) (l : Fin 2048) (j : Fin 21) :
    (gd.operandIdx (ix3 b l j) idx 1).val = j.val := by
  show gd.start (ix3 b l j) idx 1 + gd.batchCoord (ix3 b l j) 1 + gd.offCoord (ix3 b l j) 1 = _
  rw [GatherDims.batchCoord_eq_zero _ _ _ List.not_mem_nil]
  unfold GatherDims.start
  rw [dif_neg (show ¬ (1 : Fin 2) ∈ gd.startIndexMap from
    fun h => absurd (congrArg Fin.val (List.mem_singleton.mp h)) Nat.one_ne_zero)]
  simp only [Nat.add_zero, Nat.zero_add]
  rfl

/-- THE GATHER READ AT (b, l, j): the table at the clamped start index (b, l, 0), column j. -/
theorem gather_apply {α : Type} {w : Nat} (x : S27x21.Idx → α) (idx : IVec S512x2048x1 w) (b : Fin 512) (l : Fin 2048) (j : Fin 21) :
    Host.gather gd x idx (ix3 b l j)
      = x (ix2 (⟨min (idx (ix3 b l (0 : Fin 1))).toInt.toNat 26, by omega⟩ : Fin 27) j) := by
  unfold Host.gather
  congr 1
  funext a
  refine Fin.ext ?_
  match a with
  | ⟨0, _⟩ => exact gd_row idx b l j
  | ⟨1, _⟩ => exact gd_col idx b l j

/-- A code that is one of the classes passes the wrap of negative codes unchanged. -/
theorem wrap_id (x0 : (⟨S512x2048, .i32⟩ : BufTy).Contents (Elt Ideal)) (i : S512x2048.Idx) (h : (x0 i).toNat < 27) :
    val_main_v4 (F := Ideal) x0 i = x0 i := by
  rw [val_main_v4_apply, val_main_v1_apply, val_main_v0_apply, val_main_c_apply]
  have hn : ¬ IntOp.cmpi .slt (x0 i) 0#32 = 1#1 := by
    rw [StableHlo.Predicate.slt_iff_toNat (by omega) (by decide)]
    exact Nat.not_lt_zero _
  rw [eq_zero_of_ne_one hn, select_zero]

/-- THE REFERENCE'S TERM on codes that are classes: the lookup. -/
theorem ref_eq (x0 : (⟨S512x2048, .i32⟩ : BufTy).Contents (Elt Ideal)) (x1 : (⟨S27x21, .f32⟩ : BufTy).Contents (Elt Ideal))
    (hx : InRange x0) : val_main_v6 (F := Ideal) x0 x1 = G x0 x1 := by
  funext i
  obtain ⟨b, l, j, rfl⟩ : ∃ (b : Fin 512) (l : Fin 2048) (j : Fin 21), i = ix3 b l j := ⟨i 0, i 1, i 2, eq_ix3 i⟩
  -- the start index at (b, l, 0) is the code at (b, l)
  have hv : val_main_v5 (F := Ideal) x0 (ix3 b l (0 : Fin 1)) = x0 (ix2 b l) := by
    rw [val_main_v5_apply,
      show idx_main_v5 (ix3 b l (0 : Fin 1)) = ix2 b l from funext fun a => Fin.ext (by
        match a with
        | ⟨0, _⟩ => rfl
        | ⟨1, _⟩ => rfl),
      wrap_id x0 (ix2 b l) (hx _)]
  have h := hx (ix2 b l)
  unfold val_main_v6
  rw [gather_apply, G_apply]
  congr 2
  apply Fin.ext
  show min (val_main_v5 (F := Ideal) x0 (ix3 b l (0 : Fin 1))).toInt.toNat 26 = min (x0 (ix2 b l)).toNat 26
  rw [hv, StableHlo.Predicate.toInt_eq_toNat_of_lt (by omega)]
  rfl

end Cert.ReferenceIdeal.RefValue

end
-- ==== Proof.PreRange.lean ====
/-
  What the precondition says of the codes. Its last two conjuncts are `all(sequence >= 0)` and `all(sequence < 27)`,
  signed comparisons of 32-bit words: a word that is not negative reads the same signed and unsigned, so together they say
  that every code, as a natural number, is below 27 — it is one of the classes.
-/
import proofs.«403892_j51797305589978_3_alg».proof.Proof.Gen.Pre_finite_inputs
import proofs.«403892_j51797305589978_3_alg».proof.Proof.Spec
import Idealize.ShloMosaic.Lib.ReduceAll
import Idealize.ShloMosaic.Lib.Affine
import Idealize.ShloMosaic.Lib.ValueIdx
import Idealize.ShloMosaic.Lib.Pipeline.Value

noncomputable section

namespace Cert.Pre_finite_inputs.Decode

open Cert.Pre_finite_inputs Cert.Pre_finite_inputs.Gen Idealize.ShloMosaic Idealize.ShloMosaic.ValueIdx Cert.Lookup

instance : Subsingleton S_.Idx := ⟨fun a b => funext fun d => d.elim0⟩

/-- A word that is at least 0 and below 27 as a signed number is below 27 as a natural number. -/
theorem toNat_lt_of_signed (a : BitVec 32) (h0 : IntOp.cmpi .sge a 0#32 = 1#1) (h1 : IntOp.cmpi .slt a 27#32 = 1#1) :
    a.toNat < 27 := by
  have e0 : (0#32 : BitVec 32).toInt = 0 := by decide
  have e27 : (27#32 : BitVec 32).toInt = 27 := by decide
  have g0 : (0#32 : BitVec 32).sle a = true := by
    by_contra hc
    have : IntOp.cmpi .sge a 0#32 = 0#1 := by
      show BitVec.ofBool ((0#32 : BitVec 32).sle a) = 0#1
      rw [Bool.not_eq_true] at hc
      rw [hc]; rfl
    rw [this] at h0
    exact absurd h0 (by decide)
  have g1 : a.slt 27#32 = true := by
    by_contra hc
    have : IntOp.cmpi .slt a 27#32 = 0#1 := by
      show BitVec.ofBool (a.slt 27#32) = 0#1
      rw [Bool.not_eq_true] at hc
      rw [hc]; rfl
    rw [this] at h1
    exact absurd h1 (by decide)
  rw [BitVec.sle, decide_eq_true_eq, e0] at g0
  rw [BitVec.slt, decide_eq_true_eq, e27] at g1
  rw [BitVec.toInt_eq_toNat_cond] at g0 g1
  split at g0 <;> omega

/-- A scalar broadcast to the codes' shape reads the scalar everywhere. -/
theorem bcast_apply (v : IVec S_ 32) (i : S512x2048.Idx) :
    broadcastInDim S512x2048 ![] Facts.bcast_S_S512x2048 v i = v ix0 :=
  broadcastInDim_apply _ Facts.bcast_S_S512x2048 v i ix0 (fun a => a.elim0)

/-- THE PRECONDITION'S RANGE: where it holds, every code is one of the 27 classes. -/
theorem inRange_of_pre {F : FTy → Type} [FloatOps F] (x0 : IVec S512x2048 32) (x1 : FVec F S27x21 .f32)
    (h : fn (F := F) x0 x1 = fun _ => 1#1) : InRange x0 := by
  have h1 := congrFun h ix0
  dsimp only [fn] at h1
  obtain ⟨h12, h3⟩ := IntOp.andi_eq_one.mp h1
  obtain ⟨-, h2⟩ := IntOp.andi_eq_one.mp h12
  intro i
  have g0 := Host.reduce_andi_all _ _ _ _ ix0 h2 i
  have g1 := Host.reduce_andi_all _ _ _ _ ix0 h3 i
  refine toNat_lt_of_signed (x0 i) ?_ ?_
  · have e : IntOp.cmpi .sge (x0 i) (broadcastInDim S512x2048 ![] Facts.bcast_S_S512x2048 (constantI S_ 32 0#32) i) = 1#1 := g0
    rw [bcast_apply] at e
    exact e
  · have e : IntOp.cmpi .slt (x0 i) (broadcastInDim S512x2048 ![] Facts.bcast_S_S512x2048 (constantI S_ 32 27#32) i) = 1#1 := g1
    rw [bcast_apply] at e
    exact e

end Cert.Pre_finite_inputs.Decode

end
-- ==== Proof.lean ====
/-
  A table lookup, `table[sequence]`: codes [512, 2048] of 32-bit integers, a table [27, 21] of floats, the result
  [512, 2048, 21] with entry (b, l, j) the table's entry (sequence[b, l], j).

  The kernel computes each row of the result as a one-hot row (the code compared with the 27 classes) times the table,
  4096 tokens at a time, and keeps the result as [8192, 2688], 128 tokens' 21 entries to a row, which a final reshape
  regroups; the reference gathers rows of the table, wrapping negative codes by 27 and clamping. For a code that is one
  of the classes 0 … 26 both are the table's row at that code: the one-hot row has a single 1, and on the extended
  reals 0 · x = 0 for every x, so the sum over the classes is the one entry; the wrap and the clamp leave such a code
  alone. For other codes the two differ (the one-hot row is all zero, the reference still reads a row), so the claim is
  stated under the precondition that every code is in 0 … 26, and that is the only part of the precondition the proof
  uses. Both layouts are row-major throughout, so positions correspond by arithmetic alone.

  The parts: `Proof/Spec.lean` (the lookup, index by index; its layout as rows of 2688; the one-hot sum),
  `Proof/Payload.lean` (one store of the body at an index), `Proof/Block.lean` (the body's output block),
  `Proof/KernelValue.lean` (the array after the region, the reshape, the kernel's run), `Proof/Reference.lean` (the gather
  at an index, the reference's term), `Proof/PreRange.lean` (the precondition's range), `Proof/LibRowDims.lean` (a plain
  matrix product read at an entry).
-/
import proofs.«403892_j51797305589978_3_alg».proof.Defs
import proofs.«403892_j51797305589978_3_alg».proof.Proof.Gen.Kernel
import proofs.«403892_j51797305589978_3_alg».proof.Proof.Gen.Kernel.Skeleton
import proofs.«403892_j51797305589978_3_alg».proof.Proof.Gen.Kernel.Launch
import proofs.«403892_j51797305589978_3_alg».proof.Proof.Gen.Kernel.Points
import proofs.«403892_j51797305589978_3_alg».proof.Proof.Gen.Kernel.Frame
import proofs.«403892_j51797305589978_3_alg».proof.Proof.Gen.KernelIdeal
import proofs.«403892_j51797305589978_3_alg».proof.Proof.Gen.KernelIdeal.Skeleton
import proofs.«403892_j51797305589978_3_alg».proof.Proof.Gen.KernelIdeal.Launch
import proofs.«403892_j51797305589978_3_alg».proof.Proof.Gen.KernelIdeal.Points
import proofs.«403892_j51797305589978_3_alg».proof.Proof.Gen.KernelIdeal.Frame
import proofs.«403892_j51797305589978_3_alg».proof.Proof.Gen.ReferenceIdeal
import proofs.«403892_j51797305589978_3_alg».proof.Proof.Gen.Pre_finite_inputs
import proofs.«403892_j51797305589978_3_alg».proof.Proof.Gen.ReferenceIdeal.Run
import proofs.«403892_j51797305589978_3_alg».proof.Proof.Gen.ReferenceIdeal.Read
import proofs.«403892_j51797305589978_3_alg».proof.Proof.KernelValue
import proofs.«403892_j51797305589978_3_alg».proof.Proof.Reference
import proofs.«403892_j51797305589978_3_alg».proof.Proof.PreRange
import Idealize.ShloMosaic.Adequacy
import Idealize.ShloMosaic.Init

noncomputable section

namespace Cert.Proof

open Idealize.ShloMosaic Idealize.SL.Sem

/-- The kernel, at the word level and idealized, runs and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every code is a class, and then both programs end with the lookup `G` of the codes in the
    table: the kernel by its run read through the blocks and the reshape, the reference by its gather read at an index. -/
theorem algebraic : Cert.algebraic_KernelIdeal_ReferenceIdeal := by
  intro m ρ m' ρ' hpre hagree
  have hin : ∀ c, Cert.Lookup.InRange (Cert.KernelIdeal.KValue.codes m c) := fun c =>
    Cert.Pre_finite_inputs.Decode.inRange_of_pre _ _ (hpre c)
  refine ⟨fun c => Cert.Lookup.G (Cert.KernelIdeal.KValue.codes m c) (Cert.KernelIdeal.KValue.table m c),
    Cert.KernelIdeal.KValue.run m ρ hin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2]
  exact Cert.ReferenceIdeal.RefValue.ref_eq _ _ (hin c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
